-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x32x512 : Shape := ⟨3, ![8192, 32, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x32x512 : S_.BroadcastsInDim S8192x32x512 (![] : Fin 0 → Fin S8192x32x512.rank)
  reducesTo_S8192x32x512_S_d0_1_2 : S8192x32x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  main_v28

def fn {F : FTy → Type} [FloatOps F] (main_arg0 : FVec F S8192x512 .f32) (main_arg1 : FVec F S8192x32x512 .f32) (main_arg2 : FVec F S512x512 .f32) (main_arg3 : FVec F S512 .f32) (main_arg4 : FVec F S512x512 .f32) (main_arg5 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x32x512 .f32 := Host.absf main_arg1
  let main_cst_0 : FVec F S_ .f32 := constant S_ .f32 0x7F800000#32
  let main_v5 : FVec F S8192x32x512 .f32 := broadcastInDim S8192x32x512 ![] bcast_S_S8192x32x512 main_cst_0
  let main_v6 : IVec S8192x32x512 1 := cmpf .olt main_v4 main_v5
  let main_c_1 : IVec S_ 1 := constantI S_ 1 1#1
  let main_v7 : IVec S_ 1 := (fun x v => Host.reduce IntOp.andi x v reducesTo_S8192x32x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S8192x512 : Shape := ⟨2, ![8192, 512]⟩
abbrev S8192x32x512 : Shape := ⟨3, ![8192, 32, 512]⟩
abbrev S512x512 : Shape := ⟨2, ![512, 512]⟩
abbrev S512 : Shape := ⟨1, ![512]⟩
abbrev S64x32x512 : Shape := ⟨3, ![64, 32, 512]⟩
abbrev S64x512 : Shape := ⟨2, ![64, 512]⟩
abbrev S2048x512 : Shape := ⟨2, ![2048, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x32x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512x512, .bf16⟩
  | .hbm, ⟨7, _⟩ => ⟨S512x512, .bf16⟩
  | .hbm, ⟨8, _⟩ => ⟨S512x512, .bf16⟩
  | .hbm, ⟨9, _⟩ => ⟨S8192x512, .f32⟩
  | .local _ .vmem, ⟨0, _⟩ => ⟨S64x32x512, .f32⟩
  | .local _ .vmem, ⟨1, _⟩ => ⟨S64x32x512, .f32⟩
  | .local _ .vmem, ⟨2, _⟩ => ⟨S64x512, .f32⟩
  | .local _ .vmem, ⟨3, _⟩ => ⟨S64x512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512x512, .bf16⟩
  | .local _ .vmem, ⟨8, _⟩ => ⟨S64x512, .f32⟩
  | .local _ .vmem, ⟨9, _⟩ => ⟨S64x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S64x32x512_S64x32x512_0_0_0 : ∀ a, (![0, 0, 0] : Fin 3 → Nat) a + S64x32x512.size a ≤ S64x32x512.size a
  h_S64x32x512 : 0 < S64x32x512.numel
  shapeCasts_S64x32x512_S2048x512 : S64x32x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S2048x512_S64x32x512 : S2048x512.ShapeCasts S64x32x512
  reduces_S64x32x512_S64x512 : S64x32x512.Reduces [1] S64x512
  inb_S64x512_S64x512_0_0 : ∀ a, (![0, 0] : Fin 2 → Nat) a + S64x512.size a ≤ S64x512.size a
  h_S64x512 : 0 < S64x512.numel
  dot_S2048x512_S512x512_S2048x512_1_0_0_1_n_n_wf : DotDims.WF S2048x512 S512x512 S2048x512 [1] [0] [0] [1] [] []
  dot_S64x512_S512x512_S64x512_1_0_0_1_n_n_wf : DotDims.WF S64x512 S512x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x512.size a ≤ S8192x32x512.size a
  hwx0_0 : ∀ i : grid0.Coords, EltTy.bits .f32 = 32 ∨ (Rect.block (s := S8192x32x512) S64x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S8192x512.size a
  hwx0_1 : ∀ i : grid0.Coords, EltTy.bits .f32 = 32 ∨ (Rect.block (s := S8192x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S8192x512.size a
  hwx0_6 : ∀ i : grid0.Coords, EltTy.bits .f32 = 32 ∨ (Rect.block (s := S8192x512) S64x512.size (cc0_transform_6 i) (hinb0_6 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev win0_0 : Pipeline.Window sig grid0 :=
  Pipeline.Window.ofSpec (Memref.whole main_arg1) S64x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x32x512 : Shape := ⟨3, ![8192, 32, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x32x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S8192x32x512, .f32⟩
  | .hbm, ⟨7, _⟩ => ⟨S1x1x512, .f32⟩
  | .hbm, ⟨8, _⟩ => ⟨S8192x32x512, .f32⟩
  | .hbm, ⟨9, _⟩ => ⟨S8192x32x512, .f32⟩
  | .hbm, ⟨10, _⟩ => ⟨S_, .f32⟩
  | .hbm, ⟨11, _⟩ => ⟨S8192x32x512, .f32⟩
  | .hbm, ⟨12, _⟩ => ⟨S8192x32x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8192x32x512_0_1_2 : S1x1x512.BroadcastsInDim S8192x32x512 (![0, 1, 2] : Fin 3 → Fin S8192x32x512.rank)
  bcast_S_S8192x32x512 : S_.BroadcastsInDim S8192x32x512 (![] : Fin 0 → Fin S8192x32x512.rank)
  reducesTo_S8192x32x512_S8192x512_d1 : S8192x32x512.ReducesTo [1] S8192x512
  h_S_ : 0 < S_.numel
  bcast_S_S8192x512 : S_.BroadcastsInDim S8192x512 (![] : Fin 0 → Fin S8192x512.rank)
  dot_S8192x32x512_S512x512_S8192x32x512_2_0_01_1_n_n_wf : DotDims.WF S8192x32x512 S512x512 S8192x32x512 [2] [0] [0, 1] [1] [] []
  dot_S8192x512_S512x512_S8192x512_1_0_0_1_n_n_wf : DotDims.WF S8192x512 S512x512 S8192x512 [1] [0] [0] [1] [] []

variable [Facts₀]

def dot_S8192x32x512_S512x512_S8192x32x512_2_0_01_1_n_n : DotDims S8192x32x512 S512x512 S8192x32x512 where
  lhsContracting := [2]
  rhsContracting := [0]
  lhsNonContracting := [0, 1]
  rhsNonContracting := [1]
  lhsBatch := []
  rhsBatch := []
  wf := dot_S8192x32x512_S512x512_S8192x32x512_2_0_01_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.Spec.lean ====
/-
  The max-pooling aggregator as one function of its six arrays, entry by entry, over the extended reals.

  For a batch of `R` nodes with `32` neighbours each and feature width `512`:
    hidden (b, n, j)  = max (Σ_k neigh (b, n, k) · mlpW (k, j) + mlpB j) 0          -- one dense layer per neighbour, rectified
    pooled (b, j)     = max over the 32 neighbours n of hidden (b, n, j), from -∞    -- the pool
    aggregate (b, o)  = max (Σ_k self (b, k) · selfW (k, o) + Σ_j pooled (b, j) · neighW (j, o)) 0
  The number of rows `R` is a parameter: the same text is the result block of 64 nodes of one grid point and the
  whole result of 8192 nodes, and row `b` of the result reads row `b` of `self` and of `neigh` only
  (`aggregate_row`), which is what lets the blocks be laid side by side.
  The two constants are kept as the words the programs print (`0x00000000`, `0xFF800000`); nothing here needs
  their values, nor that any entry is finite: both programs compute this very expression.
-/
import Idealize.ShloMosaic.Lib.ValueIdx
import Idealize.ShloMosaic.PureOps.Ideal.Laws

noncomputable section

namespace Cert.Aggregator

open Idealize.ShloMosaic Idealize.ShloMosaic.ValueIdx

/-- The rectifier's floor, as printed. -/
abbrev floor0 : EReal := Ideal.ofBits .f32 0x00000000#32
/-- The pool's starting value, as printed. -/
abbrev poolInit : EReal := Ideal.ofBits .f32 0xFF800000#32

variable {R : ℕ}

/-- One neighbour's rectified dense layer, at output feature `j`. -/
def hidden (neigh : (⟨3, ![R, 32, 512]⟩ : Shape).Idx → EReal) (mlpW : (⟨2, ![512, 512]⟩ : Shape).Idx → EReal)
    (mlpB : (⟨1, ![512]⟩ : Shape).Idx → EReal) (b : Fin R) (n : Fin 32) (j : Fin 512) : EReal :=
  max ((∑ k : Fin 512, neigh (ix3 b n k) * mlpW (ix2 k j)) + mlpB (ix1 j)) floor0

/-- The maximum of a node's 32 neighbours' hidden features. -/
def pooled (neigh : (⟨3, ![R, 32, 512]⟩ : Shape).Idx → EReal) (mlpW : (⟨2, ![512, 512]⟩ : Shape).Idx → EReal)
    (mlpB : (⟨1, ![512]⟩ : Shape).Idx → EReal) (b : Fin R) (j : Fin 512) : EReal :=
  (Finset.univ : Finset (Fin 32)).fold max poolInit (fun n => hidden neigh mlpW mlpB b n j)

/-- The aggregator's output at node `b`, feature `o`. -/
def aggregate (self : (⟨2, ![R, 512]⟩ : Shape).Idx → EReal) (neigh : (⟨3, ![R, 32, 512]⟩ : Shape).Idx → EReal)
    (mlpW : (⟨2, ![512, 512]⟩ : Shape).Idx → EReal) (mlpB : (⟨1, ![512]⟩ : Shape).Idx → EReal)
    (neighW selfW : (⟨2, ![512, 512]⟩ : Shape).Idx → EReal) (b : Fin R) (o : Fin 512) : EReal :=
  max ((∑ k : Fin 512, self (ix2 b k) * selfW (ix2 k o)) + (∑ j : Fin 512, pooled neigh mlpW mlpB b j * neighW (ix2 j o))) floor0

/-- Row `b` of the output reads row `b` of `self` and of `neigh` only: two batches (of any sizes) whose rows
    `b` and `b'` agree give the same output row. -/
theorem aggregate_row {R' : ℕ} (self : (⟨2, ![R, 512]⟩ : Shape).Idx → EReal) (neigh : (⟨3, ![R, 32, 512]⟩ : Shape).Idx → EReal)
    (self' : (⟨2, ![R', 512]⟩ : Shape).Idx → EReal) (neigh' : (⟨3, ![R', 32, 512]⟩ : Shape).Idx → EReal)
    (mlpW : (⟨2, ![512, 512]⟩ : Shape).Idx → EReal) (mlpB : (⟨1, ![512]⟩ : Shape).Idx → EReal)
    (neighW selfW : (⟨2, ![512, 512]⟩ : Shape).Idx → EReal) (b : Fin R) (b' : Fin R') (o : Fin 512)
    (hs : ∀ k : Fin 512, self (ix2 b k) = self' (ix2 b' k))
    (hn : ∀ (n : Fin 32) (k : Fin 512), neigh (ix3 b n k) = neigh' (ix3 b' n k)) :
    aggregate self neigh mlpW mlpB neighW selfW b o = aggregate self' neigh' mlpW mlpB neighW selfW b' o := by
  unfold aggregate pooled hidden
  simp only [hs, hn]

end Cert.Aggregator

end
-- ==== Proof.LibMergeLeading.lean ====
/-
  Merging the two leading axes of a rank-3 array, and splitting them again, read at an index (general in the sizes).

  A reshape `[a, b, c] → [a * b, c]` keeps every entry at its row-major position, so the entry at row `p * b + q`
  and column `r` of the result is the operand's entry `(p, q, r)` (`merge_apply`); the reshape back
  `[a * b, c] → [a, b, c]` reads entry `(p, q, r)` from row `p * b + q`, column `r` (`split_apply`). The merged
  row is `mergedRow`. This is what flattening a batch of matrices into one tall matrix, and unflattening the result,
  print.
-/
import Idealize.ShloMosaic.Lib.ValueIdx
import Idealize.ShloMosaic.Lib.Pipeline.Value

namespace Cert.Lib.MergeLeading

open Idealize.ShloMosaic Idealize.ShloMosaic.ValueIdx

variable {a b c n : ℕ} {α : Type}

/-- Row `p * b + q` of the merged array. -/
def mergedRow (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right _ p.isLt⟩

@[simp] theorem mergedRow_val (hn : n = a * b) (p : Fin a) (q : Fin b) : (mergedRow hn p q).val = p.val * b + q.val := rfl

/-- The merged array at row `p * b + q`, column `r`, is the operand at `(p, q, r)`. -/
theorem merge_apply (hn : n = a * b) (x : (⟨3, ![a, b, c]⟩ : Shape).Idx → α)
    (h : (⟨3, ![a, b, c]⟩ : Shape).ShapeCasts (⟨2, ![n, c]⟩ : Shape)) (p : Fin a) (q : Fin b) (r : Fin c) :
    shapeCast (⟨2, ![n, c]⟩ : Shape) x h (ix2 (mergedRow hn p q) r) = x (ix3 p q r) := by
  refine shapeCast_apply x h _ _ ?_
  rw [Shape.rowMajor_val_three, Shape.rowMajor_val_two]
  rfl

/-- The split array at `(p, q, r)` is the operand at row `p * b + q`, column `r`. -/
theorem split_apply (hn : n = a * b) (y : (⟨2, ![n, c]⟩ : Shape).Idx → α)
    (h : (⟨2, ![n, c]⟩ : Shape).ShapeCasts (⟨3, ![a, b, c]⟩ : Shape)) (p : Fin a) (q : Fin b) (r : Fin c) :
    shapeCast (⟨3, ![a, b, c]⟩ : Shape) y h (ix3 p q r) = y (ix2 (mergedRow hn p q) r) := by
  refine shapeCast_apply y h _ _ ?_
  rw [Shape.rowMajor_val_three, Shape.rowMajor_val_two]
  rfl

end Cert.Lib.MergeLeading
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibMaxMiddle.lean ====
/-
  The maximum over the middle axis of a rank-3 array, read at an entry (general in the sizes).

  For an array `[A, B, C]` reduced over its axis `1` into `[A, C]`, the source index lying over the result
  index `(p, r)` with coordinate `q` on the reduced axis is `(p, q, r)` (`lift_middle`). So at the ideal
  values, where the maximum of two extended reals commutes and associates, a kernel's vector reduction with the
  maximum (`multiReduction_max_middle`) and a host's one-operand reduce with a maximum body
  (`hostReduce_max_middle`) are, at `(p, r)`, the SAME fold of `max` over `q : Fin B` of the source at
  `(p, q, r)`, started from the accumulator's (resp. the initial value's) element: what a max-pool over a
  neighbour axis prints on either side.
-/
import Idealize.ShloMosaic.Lib.ValueIdx
import Idealize.ShloMosaic.PureOps.Ideal.Laws

namespace Cert.Lib.MaxMiddle

open Idealize.ShloMosaic Idealize.ShloMosaic.ValueIdx

variable {A B C : ℕ}

/-- Over the result index `(p, r)`, the source index with `q` on the reduced middle axis is `(p, q, r)`. -/
theorem lift_middle (h : (⟨3, ![A, B, C]⟩ : Shape).Reduces [(1 : Fin 3)] (⟨2, ![A, C]⟩ : Shape))
    (p : Fin A) (r : Fin C) (q : Fin B) : h.lift (ix2 p r) q = ix3 p q r := by
  funext c
  apply Fin.ext
  match c with
  | ⟨0, _⟩ => rfl
  | ⟨1, _⟩ => rfl
  | ⟨2, _⟩ => rfl

/-- A kernel's maximum-reduction over the middle axis, at the ideal values, read at `(p, r)`. -/
theorem multiReduction_max_middle {φ : FTy} (src : FVec Ideal (⟨3, ![A, B, C]⟩ : Shape) φ) (acc : BitVec φ.bits)
    (h : (⟨3, ![A, B, C]⟩ : Shape).Reduces [(1 : Fin 3)] (⟨2, ![A, C]⟩ : Shape)) (hφ : FKind.Formats φ)
    (hacc : acc = FKind.maximumf.neutral φ hφ) (p : Fin A) (r : Fin C) :
    multiReduction .maximumf [(1 : Fin 3)] (⟨2, ![A, C]⟩ : Shape) src acc h hφ hacc (ix2 p r)
      = (Finset.univ : Finset (Fin B)).fold max (Ideal.ofBits φ acc) (fun q => src (ix3 p q r)) := by
  refine (Ideal.multiReduction_maximumf_single src acc h hφ hacc (ix2 p r)).trans ?_
  exact congrArg (fun f : Fin B → EReal => (Finset.univ : Finset (Fin B)).fold max (Ideal.ofBits φ acc) f)
    (funext fun q => congrArg src (lift_middle h p r q))

/-- A host's one-operand reduce with a maximum body over the middle axis, at the ideal values, read at `(p, r)`:
    the same fold, from the initial value's one element. -/
theorem hostReduce_max_middle {φ : FTy} {u : Shape} (x : (⟨3, ![A, B, C]⟩ : Shape).Idx → Ideal φ) (init : u.Idx → Ideal φ)
    (h' : (⟨3, ![A, B, C]⟩ : Shape).ReducesTo [(1 : Fin 3)] (⟨2, ![A, C]⟩ : Shape))
    (h : (⟨3, ![A, B, C]⟩ : Shape).Reduces [(1 : Fin 3)] (⟨2, ![A, C]⟩ : Shape)) (hu : 0 < u.numel) (p : Fin A) (r : Fin C) :
    Host.reduce (FloatOps.maximumf (F := Ideal) (φ := φ)) x init h' hu (ix2 p r)
      = (Finset.univ : Finset (Fin B)).fold max (init (Shape.Idx.first hu)) (fun q => x (ix3 p q r)) := by
  refine (Host.reduce_eq_fold_single (FloatOps.maximumf (F := Ideal) (φ := φ)) x init h' h hu (ix2 p r)).trans ?_
  exact congrArg (fun f : Fin B → EReal => (Finset.univ : Finset (Fin B)).fold max (init (Shape.Idx.first hu)) f)
    (funext fun q => congrArg x (lift_middle h p r q))

end Cert.Lib.MaxMiddle
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.KernelBody.lean ====
/-
  What one grid point's body computes, entry by entry: the aggregator on the point's blocks.

  The body flattens its `[64, 32, 512]` block of neighbour features to `[2048, 512]` (row `p · 32 + n` is neighbour
  `n` of node `p`), multiplies by the dense layer's weights, adds the bias spread over the rows, rectifies, unflattens,
  takes the maximum over the 32 neighbours, multiplies the pooled block by the neighbour weights, adds the self block
  times the self weights, and rectifies. Read at an entry `(p, o)` over the extended reals, where a change of float
  format is the identity, a product into the zero accumulator is the sum over the contraction index and the
  reduction is a fold of `max`, that is `Aggregator.aggregate` at 64 rows.
-/
import proofs.«122133_j31507880083682_1_alg».proof.Proof.Gen.KernelIdeal.Skeleton
import proofs.«122133_j31507880083682_1_alg».proof.Proof.Spec
import proofs.«122133_j31507880083682_1_alg».proof.Proof.LibMergeLeading
import proofs.«122133_j31507880083682_1_alg».proof.Proof.LibPlainDot
import proofs.«122133_j31507880083682_1_alg».proof.Proof.LibMaxMiddle
import proofs.«122133_j31507880083682_1_alg».proof.Proof.LibRowSpread

noncomputable section

namespace Cert.KernelIdeal.Body

open Cert.KernelIdeal Cert.KernelIdeal.Gen Idealize.ShloMosaic Idealize.ShloMosaic.ValueIdx
open Cert.Aggregator Cert.Lib.MergeLeading Cert.Lib.MaxMiddle Cert.Lib.RowSpread

/-- Both of the body's dimension-number records are the plain `[R, K] · [K, N]` ones. -/
theorem plain_2048 : PlainDot.IsPlain dot_S2048x512_S512x512_S2048x512_1_0_0_1_n_n := ⟨rfl, rfl, rfl, rfl, rfl, rfl⟩
theorem plain_64 : PlainDot.IsPlain dot_S64x512_S512x512_S64x512_1_0_0_1_n_n := ⟨rfl, rfl, rfl, rfl, rfl, rfl⟩

/-- A plain product into the zero accumulator at the ideal values, whatever formats the operands are typed at: the sum
    over the contraction index of the operands' products. -/
theorem matmul_zero_entry {R K N : ℕ} {d : DotDims (⟨2, ![R, K]⟩ : Shape) (⟨2, ![K, N]⟩ : Shape) (⟨2, ![R, N]⟩ : Shape)}
    (h : PlainDot.IsPlain d) {φ₁ φ₂ : FTy} (prec : Option ContractPrecision)
    (l : FVec Ideal (⟨2, ![R, K]⟩ : Shape) φ₁) (r : FVec Ideal (⟨2, ![K, N]⟩ : Shape) φ₂) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (PlainDot.sum_contr h l r p q)

/-- Over the extended reals a narrowing of the float format changes no entry. -/
theorem narrow_apply {s : Shape} {φ ψ : FTy} (x : FVec Ideal s φ) (h : ψ.bits < φ.bits) (i : s.Idx) :
    truncf ψ x h i = x i := rfl

variable (v0 : FVec Ideal S64x32x512 .f32) (v3 : FVec Ideal S512x512 .bf16) (v6 : FVec Ideal S512 .f32)
  (v15 : FVec Ideal S512x512 .bf16) (v18 : FVec Ideal S64x512 .f32) (v20 : FVec Ideal S512x512 .bf16)

/-- The rectified dense layer on the flattened block: the body's value `%11`. -/
def hiddenFlat : FVec Ideal S2048x512 .f32 :=
  maximumf (addf (matmul dot_S2048x512_S512x512_S2048x512_1_0_0_1_n_n none
      (shapeCast S2048x512 (truncf .bf16 v0 bitsLt_bf16_f32) shapeCasts_S64x32x512_S2048x512)
      (shapeCast S512x512 v3 shapeCasts_S512x512_S512x512) (constant S2048x512 .f32 0x00000000#32))
    (broadcastTo S2048x512 (shapeCast S1x512 v6 shapeCasts_S512_S1x512) broadcasts_S1x512_S2048x512))
    (broadcast S2048x512 (Scalar.ofBits .f32 0x00000000#32))

/-- The maximum over the neighbours of the unflattened hidden block: the body's value `%13`. -/
def pooledBlk : FVec Ideal S64x512 .f32 :=
  multiReduction .maximumf [1] S64x512 (shapeCast S64x32x512 (hiddenFlat v0 v3 v6) shapeCasts_S2048x512_S64x32x512)
    0xFF800000#32 reduces_S64x32x512_S64x512 (.inl rfl) rfl

set_option maxRecDepth 65536 in
/-- The payload is the rectified sum of the two small products over those. -/
theorem payload_eq : k0_pay1 (F := Ideal) v0 v3 v6 v15 v18 v20
    = maximumf (addf
        (matmul dot_S64x512_S512x512_S64x512_1_0_0_1_n_n none (truncf .bf16 v18 bitsLt_bf16_f32)
          (shapeCast S512x512 v20 shapeCasts_S512x512_S512x512) (constant S64x512 .f32 0x00000000#32))
        (matmul dot_S64x512_S512x512_S64x512_1_0_0_1_n_n none (truncf .bf16 (pooledBlk v0 v3 v6) bitsLt_bf16_f32)
          (shapeCast S512x512 v15 shapeCasts_S512x512_S512x512) (constant S64x512 .f32 0x00000000#32)))
      (broadcast S64x512 (Scalar.ofBits .f32 0x00000000#32)) := rfl

/-- Row `p · 32 + n` of the flattened hidden block is neighbour `n` of node `p`'s hidden layer. -/
theorem hiddenFlat_apply (p : Fin 64) (nb : Fin 32) (j : Fin 512) :
    hiddenFlat v0 v3 v6 (ix2 (mergedRow (n := 2048) rfl p nb) j) = hidden (R := 64) v0 v3 v6 p nb j := by
  have hm : FloatOps.matmul dot_S2048x512_S512x512_S2048x512_1_0_0_1_n_n none
      (shapeCast S2048x512 (truncf .bf16 v0 bitsLt_bf16_f32) shapeCasts_S64x32x512_S2048x512)
      (shapeCast S512x512 v3 shapeCasts_S512x512_S512x512) (constant S2048x512 .f32 0x00000000#32)
      (ix2 (mergedRow (n := 2048) rfl p nb) j) = ∑ k : Fin 512, v0 (ix3 p nb k) * v3 (ix2 k j) := by
    refine (matmul_zero_entry plain_2048 none _ _ _ j).trans ?_
    refine Finset.sum_congr rfl fun k _ => ?_
    rw [merge_apply (a := 64) (b := 32) (n := 2048) rfl, shapeCast_self, narrow_apply]
  have hb : broadcastTo S2048x512 (shapeCast S1x512 v6 shapeCasts_S512_S1x512) broadcasts_S1x512_S2048x512
      (ix2 (mergedRow (n := 2048) rfl p nb) j) = v6 (ix1 j) :=
    spread_asRow_apply v6 shapeCasts_S512_S1x512 broadcasts_S1x512_S2048x512 _ j
  exact congrArg₂ (fun a b : EReal => max (a + b) floor0) hm hb

/-- The pooled block at `(p, j)` is the maximum over node `p`'s neighbours. -/
theorem pooledBlk_apply (p : Fin 64) (j : Fin 512) : pooledBlk v0 v3 v6 (ix2 p j) = pooled (R := 64) v0 v3 v6 p j :=
  (multiReduction_max_middle _ _ reduces_S64x32x512_S64x512 (.inl rfl) rfl p j).trans
    (congrArg (fun f : Fin 32 → EReal => (Finset.univ : Finset (Fin 32)).fold max poolInit f)
      (funext fun nb => (split_apply (a := 64) (b := 32) (n := 2048) rfl _ shapeCasts_S2048x512_S64x32x512 p nb j).trans (hiddenFlat_apply v0 v3 v6 p nb j)))

/-- THE BODY'S RESULT at `(p, o)`: the aggregator on the point's blocks — self block `v18`, neighbour block `v0`,
    the three weight matrices and the bias. -/
theorem payload_apply (p : Fin 64) (o : Fin 512) :
    k0_pay1 (F := Ideal) v0 v3 v6 v15 v18 v20 (ix2 p o) = aggregate (R := 64) v18 v0 v3 v6 v15 v20 p o := by
  have hs : FloatOps.matmul dot_S64x512_S512x512_S64x512_1_0_0_1_n_n none (truncf .bf16 v18 bitsLt_bf16_f32)
      (shapeCast S512x512 v20 shapeCasts_S512x512_S512x512) (constant S64x512 .f32 0x00000000#32) (ix2 p o)
      = ∑ k : Fin 512, v18 (ix2 p k) * v20 (ix2 k o) := by
    refine (matmul_zero_entry plain_64 none _ _ p o).trans ?_
    refine Finset.sum_congr rfl fun k _ => ?_
    rw [shapeCast_self, narrow_apply]
  have hn : FloatOps.matmul dot_S64x512_S512x512_S64x512_1_0_0_1_n_n none (truncf .bf16 (pooledBlk v0 v3 v6) bitsLt_bf16_f32)
      (shapeCast S512x512 v15 shapeCasts_S512x512_S512x512) (constant S64x512 .f32 0x00000000#32) (ix2 p o)
      = ∑ j : Fin 512, pooled (R := 64) v0 v3 v6 p j * v15 (ix2 j o) := by
    refine (matmul_zero_entry plain_64 none _ _ p o).trans ?_
    refine Finset.sum_congr rfl fun j _ => ?_
    rw [shapeCast_self, narrow_apply, pooledBlk_apply]
  rw [payload_eq]
  exact congrArg₂ (fun a b : EReal => max (a + b) floor0) hs hn

end Cert.KernelIdeal.Body

end
-- ==== Proof.WholeArray.lean ====
/-
  From the grid points' blocks to the whole result array.

  The grid has 128 points; point `t` stages rows `64 t … 64 t + 63` of the self features and of the neighbour
  features, the whole of each weight matrix (cast to the narrow format on the host, which over the extended reals
  changes nothing) and of the bias, and writes back rows `64 t … 64 t + 63` of the result. A row of the aggregator's
  output reads that row of the two feature arrays only, so what point `t` writes back is block `t` of the aggregator's
  output on the WHOLE arrays; the 128 blocks cover every row, so after the run the result array is that output.
-/
import proofs.«122133_j31507880083682_1_alg».proof.Proof.Gen.KernelIdeal.Value
import proofs.«122133_j31507880083682_1_alg».proof.Proof.KernelBody
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Aggregator Cert.KernelIdeal.Body
open Idealize.ShloMosaic.Pipeline (Dat)

variable (m : (ℓ : Loc nD τ sig) → Buf (Elt Ideal) ℓ) (ρ : Dev nD → PrngReg)

/-! ## The six arrays, and the result as one function of them -/

abbrev selfArr (c : Dev nD) : S8192x512.Idx → EReal := m ((c : Thread nD τ).loc main_arg0)
abbrev neighArr (c : Dev nD) : S8192x32x512.Idx → EReal := m ((c : Thread nD τ).loc main_arg1)
abbrev mlpWArr (c : Dev nD) : S512x512.Idx → EReal := m ((c : Thread nD τ).loc main_arg2)
abbrev mlpBArr (c : Dev nD) : S512.Idx → EReal := m ((c : Thread nD τ).loc main_arg3)
abbrev neighWArr (c : Dev nD) : S512x512.Idx → EReal := m ((c : Thread nD τ).loc main_arg4)
abbrev selfWArr (c : Dev nD) : S512x512.Idx → EReal := m ((c : Thread nD τ).loc main_arg5)

/-- The aggregator's output on the whole arrays, entry by entry. -/
def wholeOut (c : Dev nD) : S8192x512.Idx → EReal := fun i =>
  aggregate (R := 8192) (selfArr m c) (neighArr m c) (mlpWArr m c) (mlpBArr m c) (neighWArr m c) (selfWArr m c) (i 0) (i 1)

/-! ## The blocks a point stages -/

abbrev neighBlk (c : Dev nD) (t : Fin cfg0.N) : FVec Ideal S64x32x512 .f32 := iblk m c 0 t
abbrev selfBlk (c : Dev nD) (t : Fin cfg0.N) : FVec Ideal S64x512 .f32 := iblk m c 1 t
abbrev mlpWBlk (c : Dev nD) (t : Fin cfg0.N) : FVec Ideal S512x512 .bf16 := iblk m c 2 t
abbrev mlpBBlk (c : Dev nD) (t : Fin cfg0.N) : FVec Ideal S512 .f32 := iblk m c 3 t
abbrev neighWBlk (c : Dev nD) (t : Fin cfg0.N) : FVec Ideal S512x512 .bf16 := iblk m c 4 t
abbrev selfWBlk (c : Dev nD) (t : Fin cfg0.N) : FVec Ideal S512x512 .bf16 := iblk m c 5 t

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the two feature windows and the result window move one block of
    rows per point; the weights and the bias stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 128 := lt_of_lt_of_eq t.isLt N_0

/-- Row `64 t + p` of the arrays: row `p` of point `t`'s blocks. -/
def rowOf (t : Fin cfg0.N) (p : Fin 64) : Fin 8192 := ⟨64 * t.val + p.val, by have := point_lt t; have := p.isLt; omega⟩

/-- The weights as the region finds them: the host's narrowing casts are the identity over the extended reals. -/
theorem V_mlpW (c : Dev nD) : (V m c main_v0 : S512x512.Idx → EReal) = mlpWArr m c := by
  dsimp only [Gen.V, Gen.hostOps0]; after_results; rfl
theorem V_neighW (c : Dev nD) : (V m c main_v1 : S512x512.Idx → EReal) = neighWArr m c := by
  dsimp only [Gen.V, Gen.hostOps0]; after_results; rfl
theorem V_selfW (c : Dev nD) : (V m c main_v2 : S512x512.Idx → EReal) = selfWArr m c := by
  dsimp only [Gen.V, Gen.hostOps0]; after_results; rfl

/-- Point `t`'s neighbour block is rows `64 t …` of the neighbour array. -/
theorem neighBlk_apply (c : Dev nD) (t : Fin cfg0.N) (p : Fin 64) (n : Fin 32) (k : Fin 512) :
    neighBlk m c t (ix3 p n k) = neighArr m c (ix3 (rowOf t p) n k) := by
  obtain ⟨e0, e1, e2, -⟩ := idx_facts t
  show V m c main_arg1 (((cfg0.win 0).blk t).view.emb (ix3 p n k)) = _
  rw [V_main_arg1]
  refine congrArg (m ((c : Thread nD τ).loc main_arg1)) (funext fun a => Fin.ext ?_)
  match a with
  | ⟨0, _⟩ => show win0_0.index t (0 : Fin 3) * 64 + 1 * p.val = 64 * t.val + p.val; omega
  | ⟨1, _⟩ => show win0_0.index t (1 : Fin 3) * 32 + 1 * n.val = n.val; omega
  | ⟨2, _⟩ => show win0_0.index t (2 : Fin 3) * 512 + 1 * k.val = k.val; omega

/-- Point `t`'s self block is rows `64 t …` of the self array. -/
theorem selfBlk_apply (c : Dev nD) (t : Fin cfg0.N) (p : Fin 64) (k : Fin 512) :
    selfBlk m c t (ix2 p k) = selfArr m c (ix2 (rowOf t p) k) := by
  obtain ⟨-, -, -, e0, e1, -⟩ := idx_facts t
  show V m c main_arg0 (((cfg0.win 1).blk t).view.emb (ix2 p k)) = _
  rw [V_main_arg0]
  refine congrArg (m ((c : Thread nD τ).loc main_arg0)) (funext fun a => Fin.ext ?_)
  match a with
  | ⟨0, _⟩ => show win0_1.index t (0 : Fin 2) * 64 + 1 * p.val = 64 * t.val + p.val; omega
  | ⟨1, _⟩ => show win0_1.index t (1 : Fin 2) * 512 + 1 * k.val = k.val; omega

/-- Every point stages the whole dense-layer weights, -/
theorem mlpWBlk_eq (c : Dev nD) (t : Fin cfg0.N) : mlpWBlk m c t = mlpWArr m c := by
  obtain ⟨-, -, -, -, -, e0, e1, -⟩ := idx_facts t
  funext y
  show V m c main_v0 (((cfg0.win 2).blk t).view.emb y) = _
  rw [← V_mlpW]
  refine congrArg (V m c main_v0) (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- the whole bias, -/
theorem mlpBBlk_eq (c : Dev nD) (t : Fin cfg0.N) : mlpBBlk m c t = mlpBArr m c := by
  obtain ⟨-, -, -, -, -, -, -, e0, -⟩ := idx_facts t
  funext y
  show V m c main_arg3 (((cfg0.win 3).blk t).view.emb y) = _
  rw [V_main_arg3]
  refine congrArg (m ((c : Thread nD τ).loc main_arg3)) (funext fun a => Fin.ext ?_)
  match a with
  | ⟨0, _⟩ => show win0_3.index t (0 : Fin 1) * 512 + 1 * (y 0).val = (y 0).val; omega

/-- the whole neighbour weights, -/
theorem neighWBlk_eq (c : Dev nD) (t : Fin cfg0.N) : neighWBlk m c t = neighWArr m c := by
  obtain ⟨-, -, -, -, -, -, -, -, e0, e1, -⟩ := idx_facts t
  funext y
  show V m c main_v1 (((cfg0.win 4).blk t).view.emb y) = _
  rw [← V_neighW]
  refine congrArg (V m c main_v1) (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- and the whole self weights. -/
theorem selfWBlk_eq (c : Dev nD) (t : Fin cfg0.N) : selfWBlk m c t = selfWArr m c := by
  obtain ⟨-, -, -, -, -, -, -, -, -, -, e0, e1, -⟩ := idx_facts t
  funext y
  show V m c main_v2 (((cfg0.win 5).blk t).view.emb y) = _
  rw [← V_selfW]
  refine congrArg (V m c main_v2) (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

/-! ## What a point writes back -/

/-- The result block's entry `(p, o)` sits at row `64 t + p`, column `o` of the result array. -/
theorem outBlk_emb (t : Fin cfg0.N) (p : Fin 64) (o : Fin 512) :
    ((cfg0.win 6).blk t).view.emb (ix2 p o) = ix2 (rowOf t p) o := by
  obtain ⟨-, -, -, -, -, -, -, -, -, -, -, -, e0, e1⟩ := idx_facts t
  refine funext fun a => Fin.ext ?_
  match a with
  | ⟨0, _⟩ => show win0_6.index t (0 : Fin 2) * 64 + 1 * p.val = 64 * t.val + p.val; omega
  | ⟨1, _⟩ => show win0_6.index t (1 : Fin 2) * 512 + 1 * o.val = o.val; omega

/-- WHAT POINT `t` WRITES BACK is block `t` of the aggregator's output on the whole arrays. -/
theorem flushed_eq (c : Dev nD) (t : Fin cfg0.N) :
    (dats m 0 c).flushed 6 t = ((cfg0.win 6).blk t).view.read (Elt Ideal) (wholeOut m c) := by
  rw [Value.flushed6]
  unfold out0_6
  rw [View.canon_unit_zero hz2]
  simp only [View.ld_unit_zero (S := S64x32x512) hz3, View.ld_unit_zero (S := S512x512) hz2,
    View.ld_unit_zero (S := S512) hz1, View.ld_unit_zero (S := S64x512) hz2]
  funext j
  obtain ⟨p, o, rfl⟩ : ∃ (p : Fin 64) (o : Fin 512), j = ix2 p o := ⟨j 0, j 1, eq_ix2 j⟩
  show k0_pay1 (F := Ideal) (neighBlk m c t) (mlpWBlk m c t) (mlpBBlk m c t) (neighWBlk m c t) (selfBlk m c t) (selfWBlk m c t) (ix2 p o)
    = wholeOut m c (((cfg0.win 6).blk t).view.emb (ix2 p o))
  rw [payload_apply, outBlk_emb, mlpWBlk_eq, mlpBBlk_eq, neighWBlk_eq, selfWBlk_eq]
  exact aggregate_row _ _ _ _ _ _ _ _ p (rowOf t p) o (fun k => selfBlk_apply m c t p k) (fun n k => neighBlk_apply m c t p n k)

/-! ## The cover, and the array after the run -/

/-- An index of the result array is in point `t`'s block iff each coordinate is in the block's range on its axis. -/
theorem mem_blk (t : Fin cfg0.N) (i : S8192x512.Idx) :
    i ∈ ((cfg0.win 6).blk t).view.set ↔ ∀ a : Fin 2, win0_6.index t a * S64x512.size a ≤ (i a).val ∧ (i a).val < win0_6.index t a * S64x512.size a + S64x512.size a := by
  show i ∈ ((View.whole main_v3).slice (win0_6.rect t)).set ↔ _
  rw [View.set_slice_whole, Rect.mem_set_unit]
  exact Iff.rfl

/-- Every index of the result array is in the block of the point that holds its row: point `row / 64`. -/
theorem covered (i : S8192x512.Idx) :
    ∃ t : Fin cfg0.N, (cfg0.win 6).flush t = true ∧ i ∈ ((cfg0.win 6).blk t).view.set := by
  have hi0 : (i 0).val < 8192 := (i 0).isLt
  have hi1 : (i 1).val < 512 := (i 1).isLt
  have hq : (i 0).val / 64 < cfg0.N := lt_of_lt_of_eq (by omega : (i 0).val / 64 < 128) N_0.symm
  obtain ⟨-, -, -, -, -, -, -, -, -, -, -, -, e0, e1⟩ := idx_facts ⟨(i 0).val / 64, hq⟩
  refine ⟨⟨(i 0).val / 64, hq⟩, flush0_6 _, ?_⟩
  rw [mem_blk]
  intro a
  match a with
  | ⟨0, _⟩ =>
    show win0_6.index ⟨(i 0).val / 64, hq⟩ (0 : Fin 2) * 64 ≤ (i 0).val ∧ (i 0).val < win0_6.index ⟨(i 0).val / 64, hq⟩ (0 : Fin 2) * 64 + 64
    rw [e0]; show (i 0).val / 64 * 64 ≤ (i 0).val ∧ (i 0).val < (i 0).val / 64 * 64 + 64; omega
  | ⟨1, _⟩ =>
    show win0_6.index ⟨(i 0).val / 64, hq⟩ (1 : Fin 2) * 512 ≤ (i 1).val ∧ (i 1).val < win0_6.index ⟨(i 0).val / 64, hq⟩ (1 : Fin 2) * 512 + 512
    rw [e1]; omega

/-- THE RESULT ARRAY after the run is the aggregator's output on the whole arrays. -/
theorem final (c : Dev nD) : (dats m 0 c).arrAt 6 cfg0.N = wholeOut m c :=
  (dats m 0 c).arrAt_eq_of_cover 6 (wholeOut m c) (fun t _ => flushed_eq m c t) covered

/-- The kernel's run: it ends with the result array at that output and the six arguments unchanged. -/
theorem run : θ_run defs (onTc (τ := τ) (main (F := Ideal))) ⟨m, fun _ => 0, ρ⟩ fun r => ∀ c : Dev nD,
      r.2.mem ((c : Thread nD τ).loc main_v3) = wholeOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefValue.lean ====
/-
  What the reference computes, entry by entry: the aggregator on the whole arrays.

  The reference's operations, read one at a time at an index — the three general dot products as sums over the
  contracted coordinate, the bias broadcast along the feature axis, the two rectifiers as a maximum with the zero
  constant spread over the array, and the reduction over the neighbour axis as a fold of `max` from the initial
  `-∞` — compose to `Aggregator.aggregate` at 8192 rows.
-/
import proofs.«122133_j31507880083682_1_alg».proof.Proof.Gen.ReferenceIdeal.Read
import proofs.«122133_j31507880083682_1_alg».proof.Proof.Spec
import proofs.«122133_j31507880083682_1_alg».proof.Proof.LibMaxMiddle

noncomputable section

namespace Cert.ReferenceIdeal.RefValue

open Cert.ReferenceIdeal Cert.ReferenceIdeal.Gen Cert.ReferenceIdeal.Read
open Idealize.ShloMosaic Idealize.ShloMosaic.ValueIdx Cert.Aggregator Cert.Lib.MaxMiddle

variable (x0 : (⟨S8192x512, .f32⟩ : BufTy).Contents (Elt Ideal)) (x1 : (⟨S8192x32x512, .f32⟩ : BufTy).Contents (Elt Ideal))
  (x2 : (⟨S512x512, .f32⟩ : BufTy).Contents (Elt Ideal)) (x3 : (⟨S512, .f32⟩ : BufTy).Contents (Elt Ideal))
  (x4 x5 : (⟨S512x512, .f32⟩ : BufTy).Contents (Elt Ideal))

/-- The reduction's shapes drop the neighbour axis. -/
theorem dropsNeighbours : S8192x32x512.Reduces [1] S8192x512 := by decide

/-- The rectified dense layer of neighbour `n` of node `b`, at feature `j`. -/
theorem hidden_stage (b : Fin 8192) (n : Fin 32) (j : Fin 512) :
    val_main_v4 (F := Ideal) x1 x2 x3 (ix3 b n j) = hidden (R := 8192) x1 x2 x3 b n j := by
  have el : ∀ k : Fin 512, lidx_main_v0 (ix3 b n j) k = ix3 b n k := fun k => funext fun a => by
    match a with
    | ⟨0, _⟩ => rfl
    | ⟨1, _⟩ => rfl
    | ⟨2, _⟩ => rfl
  have er : ∀ k : Fin 512, ridx_main_v0 (ix3 b n j) k = ix2 k j := fun k => funext fun a => by
    match a with
    | ⟨0, _⟩ => rfl
    | ⟨1, _⟩ => rfl
  have eb : idx_main_v1 (idx_main_v2 (ix3 b n j)) = ix1 j := funext fun a => by
    match a with
    | ⟨0, _⟩ => rfl
  rw [val_main_v4_apply, val_main_v3_apply, val_main_v0_apply, val_main_v2_apply, val_main_v1_apply,
    val_main_call0_v0_apply, val_main_call0_cst_apply, eb]
  simp only [el, er]
  rfl

/-- The pool over node `b`'s neighbours, at feature `j`. -/
theorem pooled_stage (b : Fin 8192) (j : Fin 512) :
    val_main_v5 (F := Ideal) x1 x2 x3 (ix2 b j) = pooled (R := 8192) x1 x2 x3 b j := by
  unfold val_main_v5
  exact (hostReduce_max_middle (φ := .f32) _ _ reducesTo_S8192x32x512_S8192x512_d1 dropsNeighbours h_S_ b j).trans
    (congrArg (fun f : Fin 32 → EReal => (Finset.univ : Finset (Fin 32)).fold max poolInit f)
      (funext fun n => hidden_stage x1 x2 x3 b n j))

/-- THE REFERENCE'S RESULT at an index: the aggregator on the whole arrays. -/
theorem result_apply (i : S8192x512.Idx) :
    val_main_v9 (F := Ideal) x0 x1 x2 x3 x4 x5 i = aggregate (R := 8192) x0 x1 x2 x3 x4 x5 (i 0) (i 1) := by
  obtain ⟨b, o, rfl⟩ : ∃ (b : Fin 8192) (o : Fin 512), i = ix2 b o := ⟨i 0, i 1, eq_ix2 i⟩
  have el7 : ∀ k : Fin 512, lidx_main_v7 (ix2 b o) k = ix2 b k := fun k => funext fun a => by
    match a with
    | ⟨0, _⟩ => rfl
    | ⟨1, _⟩ => rfl
  have er7 : ∀ k : Fin 512, ridx_main_v7 (ix2 b o) k = ix2 k o := fun k => funext fun a => by
    match a with
    | ⟨0, _⟩ => rfl
    | ⟨1, _⟩ => rfl
  have el6 : ∀ k : Fin 512, lidx_main_v6 (ix2 b o) k = ix2 b k := fun k => funext fun a => by
    match a with
    | ⟨0, _⟩ => rfl
    | ⟨1, _⟩ => rfl
  have er6 : ∀ k : Fin 512, ridx_main_v6 (ix2 b o) k = ix2 k o := fun k => funext fun a => by
    match a with
    | ⟨0, _⟩ => rfl
    | ⟨1, _⟩ => rfl
  rw [val_main_v9_apply, val_main_v8_apply, val_main_v7_apply, val_main_v6_apply, val_main_call1_v0_apply,
    val_main_call1_cst_apply]
  simp only [el7, er7, el6, er6, pooled_stage]
  rfl

end Cert.ReferenceIdeal.RefValue

end
-- ==== Proof.lean ====
/-
  The max-pooling neighbourhood aggregator: a tiled kernel against its plain reference, over the extended reals.

  Both programs compute, for each of 8192 nodes `b` and 512 output features `o`,
      max (Σ_k self (b, k) · selfW (k, o) + Σ_j pooled (b, j) · neighW (j, o)) 0,
      pooled (b, j) = max over the node's 32 neighbours n of max (Σ_k neigh (b, n, k) · mlpW (k, j) + mlpB j) 0
  (`Aggregator.aggregate`, Proof/Spec.lean). The kernel does it 64 nodes at a time on a grid of 128 points, with the
  neighbour axis flattened into the rows of one tall product and the three weight matrices narrowed to a shorter
  float format on the host; the reference does it in one piece with general dot products and a reduce. Over the
  extended reals a change of float format is the identity, a product into a zero accumulator and a general dot
  product are the same sum over the contracted coordinate, and a vector reduction and a host reduce with the
  maximum are the same fold of `max`; so the two results are the SAME expression of the six arrays, and no
  arithmetic law, and no finiteness of the inputs, is needed to join them.

  The pieces: what one grid point's body computes at an entry (Proof/KernelBody.lean); that the 128 result blocks,
  laid side by side, are the aggregator on the whole arrays, a row of the output reading that row of the feature
  arrays only (Proof/WholeArray.lean, over the kernel's frame run with its result array named); what the
  reference's operations compose to at an entry (Proof/RefValue.lean, over the reference's run read one operation
  at a time). The three frames are the programs' runs with the result dropped; the kernel was idealized with no
  rewrite, so there is nothing to preserve.
-/
import proofs.«122133_j31507880083682_1_alg».proof.Defs
import proofs.«122133_j31507880083682_1_alg».proof.Proof.Gen.Kernel
import proofs.«122133_j31507880083682_1_alg».proof.Proof.Gen.Kernel.Skeleton
import proofs.«122133_j31507880083682_1_alg».proof.Proof.Gen.Kernel.Launch
import proofs.«122133_j31507880083682_1_alg».proof.Proof.Gen.Kernel.Points
import proofs.«122133_j31507880083682_1_alg».proof.Proof.Gen.Kernel.Frame
import proofs.«122133_j31507880083682_1_alg».proof.Proof.Gen.KernelIdeal
import proofs.«122133_j31507880083682_1_alg».proof.Proof.Gen.KernelIdeal.Skeleton
import proofs.«122133_j31507880083682_1_alg».proof.Proof.Gen.KernelIdeal.Launch
import proofs.«122133_j31507880083682_1_alg».proof.Proof.Gen.KernelIdeal.Points
import proofs.«122133_j31507880083682_1_alg».proof.Proof.Gen.KernelIdeal.Frame
import proofs.«122133_j31507880083682_1_alg».proof.Proof.Gen.ReferenceIdeal
import proofs.«122133_j31507880083682_1_alg».proof.Proof.Gen.Pre_finite_inputs
import proofs.«122133_j31507880083682_1_alg».proof.Proof.Gen.KernelIdeal.Value
import proofs.«122133_j31507880083682_1_alg».proof.Proof.Gen.ReferenceIdeal.Run
import proofs.«122133_j31507880083682_1_alg».proof.Proof.Gen.ReferenceIdeal.Read
import proofs.«122133_j31507880083682_1_alg».proof.Proof.WholeArray
import proofs.«122133_j31507880083682_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result array and the reference's are both the
    aggregator's output on those arguments. -/
theorem algebraic : Cert.algebraic_KernelIdeal_ReferenceIdeal := by
  intro m ρ m' ρ' _ hagree
  refine ⟨fun c => Cert.KernelIdeal.Whole.wholeOut m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v9_eq]
  funext i
  rw [Cert.ReferenceIdeal.RefValue.result_apply, h0, h1, h2, h3, h4, h5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
